-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S2x128x128 : Shape := ⟨3, ![2, 128, 128]⟩
abbrev S2x128 : Shape := ⟨2, ![2, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  main_v18

def fn {F : FTy → Type} [FloatOps F] (main_arg0 : FVec F S100000x128 .f32) (main_arg1 : IVec S600000 32) (main_arg2 : IVec S600000 32) (main_arg3 : FVec F S2x128x128 .f32) (main_arg4 : FVec F S2x128x128 .f32) (main_arg5 : FVec F S2x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S2x128x128 .f32 := Host.absf main_arg3
  let main_cst_0 : FVec F S_ .f32 := constant S_ .f32 0x7F800000#32
  let main_v5 : FVec F S2x128x128 .f32 := broadcastInDim S2x128x128 ![] bcast_S_S2x128x128 main_cst_0
  let main_v6 : IVec S2x128x128 1 := cmpf .olt main_v4 main_v5
  let main_c_1 : IVec S_ 1 := constantI S_ 1 1#1
  let main_v7 : IVec S_ 1 := (fun x v => Host.reduce IntOp.andi x v reducesTo_S2x128x128_S_d0_1_2 h_S_) main_v6 main_c_1
  let main_v8 : IVec S_ 1 := andi main_v3 main_v7
  let main_v9 : FVec F S2x128x128 .f32 := Host.absf main_arg4
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S2x128 .f32 := Host.absf main_arg5
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_v13 main_v16
-- ==== Kernel.lean ====
abbrev S100000x128 : Shape := ⟨2, ![100000, 128]⟩
abbrev S600000 : Shape := ⟨1, ![600000]⟩
abbrev S2x128x128 : Shape := ⟨3, ![2, 128, 128]⟩
abbrev S2x128 : Shape := ⟨2, ![2, 128]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S5000x128 : Shape := ⟨2, ![5000, 128]⟩

abbrev nBuf : Space → Nat
  | .hbm => 72
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S2x128x128, .f32⟩
  | .hbm, ⟨4, _⟩ => ⟨S2x128x128, .f32⟩
  | .hbm, ⟨5, _⟩ => ⟨S2x128, .f32⟩
  | .hbm, ⟨6, _⟩ => ⟨S_, .f32⟩
  | .hbm, ⟨7, _⟩ => ⟨S600000, .f32⟩
  | .hbm, ⟨8, _⟩ => ⟨S_, .f32⟩
  | .hbm, ⟨9, _⟩ => ⟨S100000, .f32⟩
  | .hbm, ⟨10, _⟩ => ⟨S600000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .i1⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x128, .f32⟩
  | .hbm, ⟨35, _⟩ => ⟨S_, .f32⟩
  | .hbm, ⟨36, _⟩ => ⟨S100000x128, .f32⟩
  | .hbm, ⟨37, _⟩ => ⟨S600000x1, .i32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S128, .f32⟩
  | .hbm, ⟨43, _⟩ => ⟨S1x128, .f32⟩
  | .hbm, ⟨44, _⟩ => ⟨S1x128x128, .f32⟩
  | .hbm, ⟨45, _⟩ => ⟨S128x128, .f32⟩
  | .hbm, ⟨46, _⟩ => ⟨S1x128x128, .f32⟩
  | .hbm, ⟨47, _⟩ => ⟨S128x128, .f32⟩
  | .hbm, ⟨48, _⟩ => ⟨S100000x128, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x128, .f32⟩
  | .hbm, ⟨58, _⟩ => ⟨S_, .f32⟩
  | .hbm, ⟨59, _⟩ => ⟨S100000x128, .f32⟩
  | .hbm, ⟨60, _⟩ => ⟨S600000x1, .i32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S128, .f32⟩
  | .hbm, ⟨66, _⟩ => ⟨S1x128, .f32⟩
  | .hbm, ⟨67, _⟩ => ⟨S1x128x128, .f32⟩
  | .hbm, ⟨68, _⟩ => ⟨S128x128, .f32⟩
  | .hbm, ⟨69, _⟩ => ⟨S1x128x128, .f32⟩
  | .hbm, ⟨70, _⟩ => ⟨S128x128, .f32⟩
  | .hbm, ⟨71, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S2x128_S1x128_0_0 : S2x128.Slices ![0, 0] S1x128
  shapeCasts_S1x128_S128 : S1x128.ShapeCasts S128
  shapeCasts_S128_S1x128 : S128.ShapeCasts S1x128
  slices_S2x128x128_S1x128x128_0_0_0 : S2x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x128_S1x128_1_0 : S2x128.Slices ![1, 0] S1x128
  slices_S2x128x128_S1x128x128_1_0_0 : S2x128x128.Slices ![1, 0, 0] S1x128x128
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S600000 : Shape := ⟨1, ![600000]⟩
abbrev S2x128x128 : Shape := ⟨3, ![2, 128, 128]⟩
abbrev S2x128 : Shape := ⟨2, ![2, 128]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S2x128x128, .f32⟩
  | .hbm, ⟨4, _⟩ => ⟨S2x128x128, .f32⟩
  | .hbm, ⟨5, _⟩ => ⟨S2x128, .f32⟩
  | .hbm, ⟨6, _⟩ => ⟨S_, .f32⟩
  | .hbm, ⟨7, _⟩ => ⟨S600000, .f32⟩
  | .hbm, ⟨8, _⟩ => ⟨S_, .f32⟩
  | .hbm, ⟨9, _⟩ => ⟨S100000, .f32⟩
  | .hbm, ⟨10, _⟩ => ⟨S600000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .i1⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x128, .f32⟩
  | .hbm, ⟨35, _⟩ => ⟨S_, .f32⟩
  | .hbm, ⟨36, _⟩ => ⟨S100000x128, .f32⟩
  | .hbm, ⟨37, _⟩ => ⟨S600000x1, .i32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128x128, .f32⟩
  | .hbm, ⟨42, _⟩ => ⟨S128x128, .f32⟩
  | .hbm, ⟨43, _⟩ => ⟨S100000x128, .f32⟩
  | .hbm, ⟨44, _⟩ => ⟨S1x128x128, .f32⟩
  | .hbm, ⟨45, _⟩ => ⟨S128x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S600000, .i32⟩
  | .hbm, ⟨55, _⟩ => ⟨S600000, .i1⟩
  | .hbm, ⟨56, _⟩ => ⟨S_, .i32⟩
  | .hbm, ⟨57, _⟩ => ⟨S600000, .i32⟩
  | .hbm, ⟨58, _⟩ => ⟨S600000, .i32⟩
  | .hbm, ⟨59, _⟩ => ⟨S600000, .i32⟩
  | .hbm, ⟨60, _⟩ => ⟨S600000x1, .i32⟩
  | .hbm, ⟨61, _⟩ => ⟨S600000x128, .f32⟩
  | .hbm, ⟨62, _⟩ => ⟨S_, .f32⟩
  | .hbm, ⟨63, _⟩ => ⟨S100000x128, .f32⟩
  | .hbm, ⟨64, _⟩ => ⟨S600000x1, .i32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S1x128x128, .f32⟩
  | .hbm, ⟨69, _⟩ => ⟨S128x128, .f32⟩
  | .hbm, ⟨70, _⟩ => ⟨S100000x128, .f32⟩
  | .hbm, ⟨71, _⟩ => ⟨S1x128x128, .f32⟩
  | .hbm, ⟨72, _⟩ => ⟨S128x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x128x128_S1x128x128_1_0_0 : S2x128x128.Slices ![1, 0, 0] S1x128x128
  slices_S2x128_S1x128_1_0 : S2x128.Slices ![1, 0] S1x128
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageLayer.lean ====
/-
  One GraphSAGE layer with the mean aggregator, as a function of whole arrays over the extended reals.

  For node features h (N rows of 128), aggregated neighbour features n (N rows of 128), two 128 x 128 weight
  matrices Ws, Wn and a bias row b, entry (r, j) of the layer's output is

      ( sum_k h(r, k) * Ws(k, j)  +  sum_k n(r, k) * Wn(k, j) )  +  b(0, j).

  Both programs compute exactly this grouping, so nothing here needs finiteness.  Row r of the output depends
  only on row r of h and of n: a block of rows of the output is the layer of the same block of rows of the inputs
  (`layer_rows`), which is what lets a kernel that works on 5000 rows at a time be read as one whole-array function.
-/
import Idealize.ShloMosaic.PureOps.Ideal
import Idealize.ShloMosaic.Lib.ValueIdx

noncomputable section

namespace Cert.Sage

open Idealize.ShloMosaic Idealize.ShloMosaic.ValueIdx

/-- The layer, entry by entry. -/
def layer {N : Nat} (h n : (⟨2, ![N, 128]⟩ : Shape).Idx → EReal) (ws wn : (⟨2, ![128, 128]⟩ : Shape).Idx → EReal)
    (b : (⟨2, ![1, 128]⟩ : Shape).Idx → EReal) : (⟨2, ![N, 128]⟩ : Shape).Idx → EReal :=
  fun i => (∑ k : Fin 128, h (ix2 (i 0) k) * ws (ix2 k (i 1)) + ∑ k : Fin 128, n (ix2 (i 0) k) * wn (ix2 k (i 1)))
    + b (ix2 0 (i 1))

theorem layer_apply {N : Nat} (h n : (⟨2, ![N, 128]⟩ : Shape).Idx → EReal) (ws wn : (⟨2, ![128, 128]⟩ : Shape).Idx → EReal)
    (b : (⟨2, ![1, 128]⟩ : Shape).Idx → EReal) (r : Fin N) (j : Fin 128) :
    layer h n ws wn b (ix2 r j)
      = (∑ k : Fin 128, h (ix2 r k) * ws (ix2 k j) + ∑ k : Fin 128, n (ix2 r k) * wn (ix2 k j)) + b (ix2 0 j) := rfl

/-- The layer followed by the hyperbolic tangent, entry by entry. -/
def layerTanh {N : Nat} (h n : (⟨2, ![N, 128]⟩ : Shape).Idx → EReal) (ws wn : (⟨2, ![128, 128]⟩ : Shape).Idx → EReal)
    (b : (⟨2, ![1, 128]⟩ : Shape).Idx → EReal) : (⟨2, ![N, 128]⟩ : Shape).Idx → EReal :=
  fun i => Ideal.tanh (layer h n ws wn b i)

/-- Rows of the output come from the same rows of the inputs: if the M-row arrays hB, nB are rows
    `off + p` (p < M) of the N-row arrays h, n, then row p of the M-row layer is row `off + p` of the N-row layer. -/
theorem layer_rows {N M : Nat} (h n : (⟨2, ![N, 128]⟩ : Shape).Idx → EReal) (hB nB : (⟨2, ![M, 128]⟩ : Shape).Idx → EReal)
    (ws wn : (⟨2, ![128, 128]⟩ : Shape).Idx → EReal) (b : (⟨2, ![1, 128]⟩ : Shape).Idx → EReal)
    (p : Fin M) (r : Fin N) (hh : ∀ k, hB (ix2 p k) = h (ix2 r k)) (hn : ∀ k, nB (ix2 p k) = n (ix2 r k)) (j : Fin 128) :
    layer hB nB ws wn b (ix2 p j) = layer h n ws wn b (ix2 r j) := by
  rw [layer_apply, layer_apply]
  simp only [hh, hn]

/-- The same with the index of the big array given whole: `i` is in column `j 1`, and rows `j 0` of the block
    arrays are row `i 0` of the big ones; the weights and the bias row are the same arrays on both sides. -/
theorem layer_block {N M : Nat} (h n : (⟨2, ![N, 128]⟩ : Shape).Idx → EReal) (ws wn : (⟨2, ![128, 128]⟩ : Shape).Idx → EReal)
    (b : (⟨2, ![1, 128]⟩ : Shape).Idx → EReal) (hB nB : (⟨2, ![M, 128]⟩ : Shape).Idx → EReal)
    (wsB wnB : (⟨2, ![128, 128]⟩ : Shape).Idx → EReal) (bB : (⟨2, ![1, 128]⟩ : Shape).Idx → EReal)
    (j : (⟨2, ![M, 128]⟩ : Shape).Idx) (i : (⟨2, ![N, 128]⟩ : Shape).Idx) (hcol : i 1 = j 1)
    (hh : ∀ k, hB (ix2 (j 0) k) = h (ix2 (i 0) k)) (hn : ∀ k, nB (ix2 (j 0) k) = n (ix2 (i 0) k))
    (hws : wsB = ws) (hwn : wnB = wn) (hb : bB = b) :
    layer hB nB wsB wnB bB j = layer h n ws wn b i := by
  subst hws hwn hb
  unfold layer
  simp only [hh, hn, hcol]

theorem layerTanh_block {N M : Nat} (h n : (⟨2, ![N, 128]⟩ : Shape).Idx → EReal) (ws wn : (⟨2, ![128, 128]⟩ : Shape).Idx → EReal)
    (b : (⟨2, ![1, 128]⟩ : Shape).Idx → EReal) (hB nB : (⟨2, ![M, 128]⟩ : Shape).Idx → EReal)
    (wsB wnB : (⟨2, ![128, 128]⟩ : Shape).Idx → EReal) (bB : (⟨2, ![1, 128]⟩ : Shape).Idx → EReal)
    (j : (⟨2, ![M, 128]⟩ : Shape).Idx) (i : (⟨2, ![N, 128]⟩ : Shape).Idx) (hcol : i 1 = j 1)
    (hh : ∀ k, hB (ix2 (j 0) k) = h (ix2 (i 0) k)) (hn : ∀ k, nB (ix2 (j 0) k) = n (ix2 (i 0) k))
    (hws : wsB = ws) (hwn : wnB = wn) (hb : bB = b) :
    layerTanh hB nB wsB wnB bB j = layerTanh h n ws wn b i :=
  congrArg Ideal.tanh (layer_block h n ws wn b hB nB wsB wnB bB j i hcol hh hn hws hwn hb)

theorem layerTanh_rows {N M : Nat} (h n : (⟨2, ![N, 128]⟩ : Shape).Idx → EReal) (hB nB : (⟨2, ![M, 128]⟩ : Shape).Idx → EReal)
    (ws wn : (⟨2, ![128, 128]⟩ : Shape).Idx → EReal) (b : (⟨2, ![1, 128]⟩ : Shape).Idx → EReal)
    (p : Fin M) (r : Fin N) (hh : ∀ k, hB (ix2 p k) = h (ix2 r k)) (hn : ∀ k, nB (ix2 p k) = n (ix2 r k)) (j : Fin 128) :
    layerTanh hB nB ws wn b (ix2 p j) = layerTanh h n ws wn b (ix2 r j) :=
  congrArg Ideal.tanh (layer_rows h n hB nB ws wn b p r hh hn j)

end Cert.Sage

end
-- ==== Proof.LibRealFactor.lean ====
/-
  Two general facts about the extended reals as the exact instance computes with them.

  1. A real factor distributes over the sum of ANY extended real and a real: r * (w + t) = r * w + r * t.  (Over the
     extended reals multiplication does not distribute over addition in general; here the one possibly infinite
     summand w keeps its sign under the real factor r, or is annihilated by r = 0, and the real summand cannot cancel
     it.)  Termwise under a finite sum this splits sum_k x_k * (w_k + a_k) into sum_k x_k * w_k + sum_k x_k * a_k when
     the x_k and a_k are real.
  2. A plain matrix product — an N x D matrix times a D x H matrix, the first one's columns contracted with the second
     one's rows — read at entry (i, j) is the sum over k of l(i, k) * r(k, j), both for the matrix unit's product
     accumulated into the zero matrix and for the host's product.
-/
import Idealize.ShloMosaic.PureOps.Ideal
import Idealize.ShloMosaic.PureOps.Ideal.Laws
import Idealize.ShloMosaic.Lib.ValueIdx

noncomputable section

namespace Cert.Fold

open Idealize.ShloMosaic Idealize.ShloMosaic.ValueIdx

/-! ## The law -/

/-- A real factor distributes over the sum of an extended real and a real. -/
theorem coe_mul_add_coe (r t : ℝ) (w : EReal) :
    (r : EReal) * (w + (t : EReal)) = (r : EReal) * w + (r : EReal) * (t : EReal) := by
  induction w using EReal.rec with
  | bot =>
    rw [EReal.bot_add]
    rcases lt_trichotomy r 0 with h | h | h
    · rw [EReal.coe_mul_bot_of_neg h, ← EReal.coe_mul, EReal.top_add_coe]
    · subst h; simp
    · rw [EReal.coe_mul_bot_of_pos h, EReal.bot_add]
  | coe w =>
    rw [← EReal.coe_add, ← EReal.coe_mul, ← EReal.coe_mul, ← EReal.coe_mul, ← EReal.coe_add, mul_add]
  | top =>
    rw [EReal.top_add_coe]
    rcases lt_trichotomy r 0 with h | h | h
    · rw [EReal.coe_mul_top_of_neg h, EReal.bot_add]
    · subst h; simp
    · rw [EReal.coe_mul_top_of_pos h, ← EReal.coe_mul, EReal.top_add_coe]

/-- Termwise: a sum of real multiples of `w k + a k`, the `a k` real, is the sum of the multiples of the `w k`
    plus the sum of the multiples of the `a k`. -/
theorem sum_mul_add {ι : Type*} (s : Finset ι) (x w a : ι → EReal)
    (hx : ∀ k, ∃ r : ℝ, x k = (r : EReal)) (ha : ∀ k, ∃ t : ℝ, a k = (t : EReal)) :
    ∑ k ∈ s, x k * (w k + a k) = ∑ k ∈ s, x k * w k + ∑ k ∈ s, x k * a k := by
  rw [← Finset.sum_add_distrib]
  refine Finset.sum_congr rfl fun k _ => ?_
  obtain ⟨r, hr⟩ := hx k
  obtain ⟨t, ht⟩ := ha k
  rw [hr, ht]
  exact coe_mul_add_coe r t (w k)

/-! ## A matrix product at an entry -/

/-- For a plain product of an N x D matrix with a D x H matrix (the first one's columns contracted with the second
    one's rows) the sum over the contraction index at entry (i, j) is the sum over k of l(i, k) r(k, j). -/
theorem contr_sum_rows {N D H : Nat} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![N, D]⟩ : Shape).Idx → EReal) (r : (⟨2, ![D, H]⟩ : Shape).Idx → EReal) (i : Fin N) (j : Fin H) :
    ∑ k : d.contr.Idx, l (d.lhsIdx (ix2 i j) k) * r (d.rhsIdx (ix2 i j) k) = ∑ k : Fin D, l (ix2 i k) * r (ix2 k j) := by
  obtain ⟨lc, rc, ln, rn, lb, rb, wf⟩ := d
  simp only at h1 h2 h3 h4 h5 h6
  subst h1 h2 h3 h4 h5 h6
  rw [← Equiv.sum_comp (contrEquiv1 (⟨[1], [0], [0], [1], [], [], wf⟩ : DotDims ⟨2, ![N, D]⟩ ⟨2, ![D, H]⟩ ⟨2, ![N, H]⟩) D rfl rfl).symm]
  refine Finset.sum_congr rfl fun k _ => ?_
  congr 1
  · refine congrArg l ?_
    funext a
    match a with
    | ⟨0, _⟩ => exact Fin.ext rfl
    | ⟨1, _⟩ => exact Fin.ext rfl
  · refine congrArg r ?_
    funext a
    match a with
    | ⟨0, _⟩ => exact Fin.ext rfl
    | ⟨1, _⟩ => exact Fin.ext rfl

/-- The matrix unit's product accumulated into the zero matrix, at entry (i, j). -/
theorem matmul_zero_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    matmul d prec l r (constant ⟨2, ![N, H]⟩ .f32 0x00000000#32) (ix2 i j) = ∑ k : Fin D, l (ix2 i k) * r (ix2 k j) := by
  simp only [matmul]
  rw [Ideal.matmul_constant_zero_apply]
  exact contr_sum_rows d h1 h2 h3 h4 h5 h6 l r i j

/-- The host's product, at entry (i, j). -/
theorem dotGeneral_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    Host.dotGeneral d prec l r (ix2 i j) = ∑ k : Fin D, l (ix2 i k) * r (ix2 k j) := by
  unfold Host.dotGeneral
  rw [Ideal.dotGeneral_apply]
  exact contr_sum_rows d h1 h2 h3 h4 h5 h6 l r i j

end Cert.Fold

end
-- ==== Proof.SageModel.lean ====
/-
  The whole two-layer GraphSAGE computation as ONE function of the six argument arrays, over the extended reals.

  Both programs do the same things around the dense layers, with the same host operations in the same order:
    * deg(v) = number of edges into v (ones scatter-added at the destination indices); the column
      invDeg(v) = 1 / max(deg v, 1) where deg v > 0, else 0;
    * neigh(h) = (rows h[src] scatter-added at dst) * invDeg, the mean of the in-neighbours' rows (a negative source
      index wrapped once by the number of nodes, as jnp indexing does);
    * layer l uses slice l of the stacked weights and of the stacked biases.
  These are carried as opaque functions: nothing about gather or scatter-add is ever opened, only that both programs
  apply them to equal operands.  The result is

      tanh-layer( h1, neigh h1 ; W[1] )    with    h1 = layer( x, neigh x ; W[0] ).

  The reference computes each layer on the host as (h . Ws + n . Wn) + b with the 128-vector b laid out as a row and
  repeated down the rows; entry by entry that is `Cert.Sage.layer` (`refLayer_eq`).
-/
import proofs.«128625_j69870527971697_1_alg».proof.Proof.Gen.ReferenceIdeal
import proofs.«128625_j69870527971697_1_alg».proof.Proof.SageLayer
import proofs.«128625_j69870527971697_1_alg».proof.Proof.LibRealFactor
import Idealize.ShloMosaic.Lib.Pipeline.Value

noncomputable section

namespace Cert.Sage

open Cert.ReferenceIdeal Cert.ReferenceIdeal.Gen Idealize.ShloMosaic Idealize.ShloMosaic.ValueIdx

/-- A 128-vector laid out as a 1 x 128 row. -/
def biasRow (bv : (⟨1, ![128]⟩ : Shape).Idx → EReal) : (⟨2, ![1, 128]⟩ : Shape).Idx → EReal := fun i => bv (ix1 (i 1))

variable {F : FTy → Type} [FloatOps F]

/-- The in-degree of every node: a one scatter-added at each edge's destination. -/
def degree (dst : IVec S600000 32) : FVec F S100000 .f32 :=
  Host.scatterAdd scatter_S100000_S600000x1_S600000_n_0_0_1 (broadcastInDim S100000 ![] bcast_S_S100000 (constant (F := F) S_ .f32 0x00000000#32)) (broadcastInDim S600000x1 ![0] bcast_S600000_S600000x1_0 dst) (broadcastInDim S600000 ![] bcast_S_S600000 (constant (F := F) S_ .f32 0x3F800000#32))

/-- The column 1 / max(deg, 1) where deg > 0, else 0. -/
def invDeg (dst : IVec S600000 32) : FVec F S100000x1 .f32 :=
  broadcastInDim S100000x1 ![0] bcast_S100000_S100000x1_0 (select (cmpf (F := F) .ogt (degree dst) (broadcastInDim S100000 ![] bcast_S_S100000 (constant (F := F) S_ .f32 0x00000000#32))) (Host.divf (broadcastInDim S100000 ![] bcast_S_S100000 (constant (F := F) S_ .f32 0x3F800000#32)) (maximumf (degree dst) (broadcastInDim S100000 ![] bcast_S_S100000 (constant (F := F) S_ .f32 0x3F800000#32)))) (broadcastInDim S100000 ![] bcast_S_S100000 (id (constant (F := F) S_ .f32 0x00000000#32))))

/-- The neighbour sums of h scaled by a given column: rows h[src] scatter-added at dst, times the column. -/
def neighWith (h : FVec F S100000x128 .f32) (src dst : IVec S600000 32) (col : FVec F S100000x1 .f32) : FVec F S100000x128 .f32 :=
  mulf (Host.scatterAdd scatter_S100000x128_S600000x1_S600000x128_1_0_0_1 (broadcastInDim S100000x128 ![] bcast_S_S100000x128 (constant (F := F) S_ .f32 0x00000000#32)) (broadcastInDim S600000x1 ![0] bcast_S600000_S600000x1_0 dst) (Host.gather gather_S100000x128_S600000x1_S600000x128_1_0_n_n_0_1_1128 h (broadcastInDim S600000x1 ![0] bcast_S600000_S600000x1_0 (select (cmpi .slt src (broadcastInDim S600000 ![] bcast_S_S600000 (constantI S_ 32 0#32))) (addi src (broadcastInDim S600000 ![] bcast_S_S600000 (constantI S_ 32 100000#32))) src)))) (broadcastInDim S100000x128 ![0, 1] bcast_S100000x1_S100000x128_0_1 col)

/-- The mean of the in-neighbours' rows. -/
def neigh (h : FVec F S100000x128 .f32) (src dst : IVec S600000 32) : FVec F S100000x128 .f32 :=
  neighWith h src dst (invDeg dst)

/-- Slice 0 and slice 1 of the stacked weights, as 128 x 128 matrices. -/
def wAt0 (W : FVec F S2x128x128 .f32) : FVec F S128x128 .f32 :=
  shapeCast S128x128 (extractStridedSlice S1x128x128 ![0, 0, 0] W slices_S2x128x128_S1x128x128_0_0_0) shapeCasts_S1x128x128_S128x128
def wAt1 (W : FVec F S2x128x128 .f32) : FVec F S128x128 .f32 :=
  shapeCast S128x128 (extractStridedSlice S1x128x128 ![1, 0, 0] W slices_S2x128x128_S1x128x128_1_0_0) shapeCasts_S1x128x128_S128x128

/-- Row 0 and row 1 of the stacked biases, as 128-vectors. -/
def bAt0 (b : FVec F S2x128 .f32) : FVec F S128 .f32 :=
  shapeCast S128 (extractStridedSlice S1x128 ![0, 0] b slices_S2x128_S1x128_0_0) shapeCasts_S1x128_S128
def bAt1 (b : FVec F S2x128 .f32) : FVec F S128 .f32 :=
  shapeCast S128 (extractStridedSlice S1x128 ![1, 0] b slices_S2x128_S1x128_1_0) shapeCasts_S1x128_S128

/-- One layer as the reference's host operations compute it. -/
def refLayer (h n : FVec F S100000x128 .f32) (ws wn : FVec F S128x128 .f32) (bv : FVec F S128 .f32) : FVec F S100000x128 .f32 :=
  addf (addf (Host.dotGeneral dot_S100000x128_S128x128_S100000x128_1_0_0_1_n_n none h ws) (Host.dotGeneral dot_S100000x128_S128x128_S100000x128_1_0_0_1_n_n none n wn)) (broadcastInDim S100000x128 ![0, 1] bcast_S1x128_S100000x128_0_1 (broadcastInDim S1x128 ![1] bcast_S128_S1x128_1 bv))

/-- The whole computation with both layers as the reference's host operations write them. -/
def refModel (x : FVec F S100000x128 .f32) (src dst : IVec S600000 32) (Ws Wn : FVec F S2x128x128 .f32)
    (b : FVec F S2x128 .f32) : FVec F S100000x128 .f32 :=
  Host.tanh (refLayer (refLayer x (neigh x src dst) (wAt0 Ws) (wAt0 Wn) (bAt0 b))
    (neigh (refLayer x (neigh x src dst) (wAt0 Ws) (wAt0 Wn) (bAt0 b)) src dst) (wAt1 Ws) (wAt1 Wn) (bAt1 b))

/-- The 128-vector laid out as a row and repeated down the rows reads the vector's entry of the same column. -/
theorem bias_rows (bv : FVec Ideal S128 .f32) (r : Fin 100000) (j : Fin 128) :
    broadcastInDim S100000x128 ![0, 1] bcast_S1x128_S100000x128_0_1 (broadcastInDim S1x128 ![1] bcast_S128_S1x128_1 bv) (ix2 r j) = biasRow bv (ix2 0 j) := by
  rw [broadcastInDim_apply ![0, 1] bcast_S1x128_S100000x128_0_1 _ (ix2 r j) (ix2 0 j) (fun a => match a with
      | ⟨0, _⟩ => by show (0 : Nat) = if (1 : Nat) = 1 then 0 else _; rw [if_pos rfl]
      | ⟨1, _⟩ => by show j.val = if (128 : Nat) = 1 then 0 else _; rw [if_neg (by decide)]; rfl),
    broadcastInDim_apply ![1] bcast_S128_S1x128_1 bv (ix2 0 j) (ix1 j) (fun a => match a with
      | ⟨0, _⟩ => by show j.val = if (128 : Nat) = 1 then 0 else _; rw [if_neg (by decide)]; rfl)]
  rfl

/-- The reference's layer is the layer. -/
theorem refLayer_eq (h n : FVec Ideal S100000x128 .f32) (ws wn : FVec Ideal S128x128 .f32) (bv : FVec Ideal S128 .f32) :
    refLayer h n ws wn bv = layer (N := 100000) h n ws wn (biasRow bv) := by
  funext i
  obtain ⟨r, j, rfl⟩ : ∃ (r : Fin 100000) (j : Fin 128), i = ix2 r j := ⟨i 0, i 1, eq_ix2 i⟩
  unfold refLayer
  rw [layer_apply, addf_apply, addf_apply,
    Cert.Fold.dotGeneral_rows dot_S100000x128_S128x128_S100000x128_1_0_0_1_n_n rfl rfl rfl rfl rfl rfl none h ws r j,
    Cert.Fold.dotGeneral_rows dot_S100000x128_S128x128_S100000x128_1_0_0_1_n_n rfl rfl rfl rfl rfl rfl none n wn r j,
    bias_rows]

/-- The whole computation: layer 0, then layer 1 under the hyperbolic tangent, each on the features and their
    neighbour means. -/
def model (x : FVec Ideal S100000x128 .f32) (src dst : IVec S600000 32) (Ws Wn : FVec Ideal S2x128x128 .f32)
    (b : FVec Ideal S2x128 .f32) : FVec Ideal S100000x128 .f32 :=
  layerTanh (N := 100000)
    (layer (N := 100000) x (neigh (F := Ideal) x src dst) (wAt0 (F := Ideal) Ws) (wAt0 (F := Ideal) Wn) (biasRow (bAt0 (F := Ideal) b)))
    (neigh (F := Ideal) (layer (N := 100000) x (neigh (F := Ideal) x src dst) (wAt0 (F := Ideal) Ws) (wAt0 (F := Ideal) Wn) (biasRow (bAt0 (F := Ideal) b))) src dst)
    (wAt1 (F := Ideal) Ws) (wAt1 (F := Ideal) Wn) (biasRow (bAt1 (F := Ideal) b))

theorem refModel_eq (x : FVec Ideal S100000x128 .f32) (src dst : IVec S600000 32) (Ws Wn : FVec Ideal S2x128x128 .f32)
    (b : FVec Ideal S2x128 .f32) : refModel x src dst Ws Wn b = model x src dst Ws Wn b := by
  unfold refModel model
  rw [refLayer_eq, refLayer_eq]
  rfl

end Cert.Sage

end
-- ==== Proof.RefValue.lean ====
/-
  The reference's result is the model of the argument arrays.

  The reference's run ends with its result at the composed term of its host operations; that term is, operation for
  operation, the model with both layers in the host's form (`Cert.Sage.refModel`), and each host layer is the layer
  entry by entry (`Cert.Sage.refModel_eq`).
-/
import proofs.«128625_j69870527971697_1_alg».proof.Proof.RefRun
import proofs.«128625_j69870527971697_1_alg».proof.Proof.SageModel

noncomputable section

namespace Cert.ReferenceIdeal.RefValue

open Cert.ReferenceIdeal Cert.ReferenceIdeal.Gen Idealize.ShloMosaic Idealize.ShloMosaic.TcCoe Idealize.SL.Sem Cert.Sage

set_option maxRecDepth 8192 in
/-- The run's composed term is the model in the host's form: the same operations, named (for any float family). -/
theorem res_refModel {F : FTy → Type} [FloatOps F] (m : (ℓ : Loc nD τ sig) → Buf (Elt F) ℓ) (c : Dev nD) :
    ValueP.res_main_v60 (F := F) m c
      = refModel (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold ValueP.res_main_v60 refModel refLayer neigh neighWith invDeg degree wAt0 wAt1 bAt0 bAt1
  rfl

/-- The reference's result is the model of the arguments. -/
theorem res_model (m : (ℓ : Loc nD τ sig) → Buf (Elt Ideal) ℓ) (c : Dev nD) :
    ValueP.res_main_v60 (F := Ideal) m c
      = model (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (res_refModel (F := Ideal) m c).trans (refModel_eq _ _ _ _ _ _)

end Cert.ReferenceIdeal.RefValue

end
-- ==== Proof.KernelPayload.lean ====
/-
  What each of the two kernel bodies stores, as a function of the blocks it loads.

  A grid point of either kernel loads a 5000-row block of the node features, the same 5000 rows of the aggregated
  neighbour features, the two whole 128 x 128 weight matrices and the 1 x 128 bias row, and stores
  (h_blk * Ws + n_blk * Wn) + b, the two products accumulated into zero matrices, the bias row repeated down the
  rows; the second kernel applies the hyperbolic tangent before storing.  Read entry by entry over the extended
  reals that is the layer (`Cert.Sage.layer`, `layerTanh`) of the loaded blocks.
-/
import proofs.«128625_j69870527971697_1_alg».proof.Proof.Gen.KernelIdeal.Skeleton
import proofs.«128625_j69870527971697_1_alg».proof.Proof.SageLayer
import proofs.«128625_j69870527971697_1_alg».proof.Proof.LibRealFactor
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Sage

/-- The bias row repeated down 5000 rows reads the row's entry of the same column. -/
theorem bias_rows (x4 : Vec Ideal S1x128 .f32) (p : Fin 5000) (q : Fin 128) :
    broadcastTo S5000x128 x4 broadcasts_S1x128_S5000x128 (ix2 p q) = x4 (ix2 0 q) :=
  broadcastTo_apply x4 broadcasts_S1x128_S5000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else _; rw [if_neg (by decide)]; rfl)

/-- The first kernel's stored value is the layer of its loaded blocks. -/
theorem pay0_eq (x0 x1 : Vec Ideal S5000x128 .f32) (x2 x3 : Vec Ideal S128x128 .f32) (x4 : Vec Ideal S1x128 .f32) :
    k0_pay1 (F := Ideal) x0 x1 x2 x3 x4 = layer (N := 5000) x0 x1 x2 x3 x4 := by
  funext i
  obtain ⟨p, q, rfl⟩ : ∃ (p : Fin 5000) (q : Fin 128), i = ix2 p q := ⟨i 0, i 1, eq_ix2 i⟩
  unfold k0_pay1
  simp only [shapeCast_self]
  rw [layer_apply, addf_apply, addf_apply,
    Cert.Fold.matmul_zero_rows dot_S5000x128_S128x128_S5000x128_1_0_0_1_n_n rfl rfl rfl rfl rfl rfl none x0 x2 p q,
    Cert.Fold.matmul_zero_rows dot_S5000x128_S128x128_S5000x128_1_0_0_1_n_n rfl rfl rfl rfl rfl rfl none x1 x3 p q,
    bias_rows]

/-- The second kernel's stored value is the layer of its loaded blocks under the hyperbolic tangent. -/
theorem pay1_eq (x0 x1 : Vec Ideal S5000x128 .f32) (x2 x3 : Vec Ideal S128x128 .f32) (x4 : Vec Ideal S1x128 .f32) :
    k1_pay1 (F := Ideal) x0 x1 x2 x3 x4 = layerTanh (N := 5000) x0 x1 x2 x3 x4 := by
  funext i
  obtain ⟨p, q, rfl⟩ : ∃ (p : Fin 5000) (q : Fin 128), i = ix2 p q := ⟨i 0, i 1, eq_ix2 i⟩
  unfold k1_pay1
  simp only [shapeCast_self]
  refine congrArg Ideal.tanh (a₂ := layer (N := 5000) x0 x1 x2 x3 x4 (ix2 p q)) ?_
  rw [layer_apply, addf_apply, addf_apply,
    Cert.Fold.matmul_zero_rows dot_S5000x128_S128x128_S5000x128_1_0_0_1_n_n rfl rfl rfl rfl rfl rfl none x0 x2 p q,
    Cert.Fold.matmul_zero_rows dot_S5000x128_S128x128_S5000x128_1_0_0_1_n_n rfl rfl rfl rfl rfl rfl none x1 x3 p q,
    bias_rows]

end Cert.KernelIdeal.Body

end
-- ==== Proof.KernelRegion0.lean ====
/-
  The first kernel's output array after all twenty grid points, as one function of the arrays the kernel finds.

  Grid point t works on rows 5000 t .. 5000 t + 4999: it reads that block of rows of the node features and of the
  aggregated neighbour features, the whole weight matrices and the whole bias row, and writes back that block of
  rows of the output.  What it writes is the layer of its blocks, and a row of the layer depends only on the same
  row of the two feature arrays, so the block written back is the same block of rows of the layer of the WHOLE
  arrays.  The twenty blocks tile the 100000 rows (row r lies in block r / 5000), hence the array ends holding the
  layer of the whole arrays.
-/
import proofs.«128625_j69870527971697_1_alg».proof.Proof.Gen.KernelIdeal.Frame
import proofs.«128625_j69870527971697_1_alg».proof.Proof.KernelPayload
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem Cert.Sage
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays the region finds. -/
abbrev whole (c : Dev nD) : S100000x128.Idx → EReal :=
  layer (N := 100000) (V c main_arg0) (V c main_v23) (V c main_v28) (V c main_v30) (V c main_v26)

/-- The block indices over the grid: the two feature windows move with the output window down the rows, the weight
    and bias windows stay at block (0, 0), nothing moves along the columns. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 19 ∧ win0_5.index t (1 : Fin 2) = 0 :=
  (by decide +kernel : ∀ t : Fin grid0.N, _)

/-- Every block of rows is some grid point's. -/
theorem idx_onto : ∀ q0 : Fin 20, ∃ t : Fin cfg0.N, win0_5.index t = ![q0.val, 0] :=
  (by decide +kernel : ∀ q0 : Fin 20, ∃ t : Fin grid0.N, win0_5.index t = ![q0.val, 0])

/-- What grid point t writes back is its block of rows of the layer of the whole arrays. -/
theorem flushed_eq (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [Body.pay0_eq]
  obtain ⟨e0, e1, e2, e3, e4, e5, e6, e7, e8, e9, e10, e11⟩ := idx_facts t
  funext j
  show layer (N := 5000) (fun y => V c main_arg0 (((cfg0.win 0).blk t).view.emb y)) (fun y => V c main_v23 (((cfg0.win 1).blk t).view.emb y))
        (fun y => V c main_v28 (((cfg0.win 2).blk t).view.emb y)) (fun y => V c main_v30 (((cfg0.win 3).blk t).view.emb y))
        (fun y => V c main_v26 (((cfg0.win 4).blk t).view.emb y)) j
      = layer (N := 100000) (V c main_arg0) (V c main_v23) (V c main_v28) (V c main_v30) (V c main_v26) (((cfg0.win 5).blk t).view.emb j)
  have hj0 : (j 0).val < 5000 := (j 0).isLt
  have hj1 : (j 1).val < 128 := (j 1).isLt
  refine layer_block (V c main_arg0) (V c main_v23) (V c main_v28) (V c main_v30) (V c main_v26) _ _ _ _ _ j
    (((cfg0.win 5).blk t).view.emb j) ?_ ?_ ?_ ?_ ?_ ?_
  · exact Fin.ext (by show win0_5.index t (1 : Fin 2) * 128 + 1 * (j 1).val = (j 1).val; omega)
  · intro k
    refine congrArg (V c main_arg0) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · intro k
    refine congrArg (V c main_v23) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · funext y
    refine congrArg (V c main_v28) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    refine congrArg (V c main_v30) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    refine congrArg (V c main_v26) (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega

/-- An index of the output array is in grid point t's block iff each coordinate is in the block's range. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v31).slice (win0_5.rect t)).set ↔ _
  rw [View.set_slice_whole, Rect.mem_set_unit]
  exact Iff.rfl

/-- The twenty blocks of rows tile the array: row r is in block r / 5000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the region: the layer of the whole arrays the region found. -/
theorem final (c : Dev nD) : (dat0 V c).arrAt 5 cfg0.N = whole V c :=
  (dat0 V c).arrAt_eq_of_cover 5 (whole V c) (fun t _ => flushed_eq V c t) cover

end Cert.KernelIdeal.Region0

end
-- ==== Proof.KernelRegion1.lean ====
/-
  The second kernel's output array after all twenty grid points, as one function of the arrays the kernel finds.

  Grid point t works on rows 5000 t .. 5000 t + 4999: it reads that block of rows of the node features and of the
  aggregated neighbour features, the whole weight matrices and the whole bias row, and writes back that block of
  rows of the output.  What it writes is the layer of its blocks under the hyperbolic tangent, and a row of the layer depends only on the same
  row of the two feature arrays, so the block written back is the same block of rows of that function of the WHOLE
  arrays.  The twenty blocks tile the 100000 rows (row r lies in block r / 5000), hence the array ends holding the
  layer of the whole arrays.
-/
import proofs.«128625_j69870527971697_1_alg».proof.Proof.Gen.KernelIdeal.Frame
import proofs.«128625_j69870527971697_1_alg».proof.Proof.KernelPayload
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem Cert.Sage
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays the region finds. -/
abbrev whole (c : Dev nD) : S100000x128.Idx → EReal :=
  layerTanh (N := 100000) (V c main_v31) (V c main_v43) (V c main_v48) (V c main_v50) (V c main_v46)

/-- The block indices over the grid: the two feature windows move with the output window down the rows, the weight
    and bias windows stay at block (0, 0), nothing moves along the columns. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 19 ∧ win1_5.index t (1 : Fin 2) = 0 :=
  (by decide +kernel : ∀ t : Fin grid1.N, _)

/-- Every block of rows is some grid point's. -/
theorem idx_onto : ∀ q0 : Fin 20, ∃ t : Fin cfg1.N, win1_5.index t = ![q0.val, 0] :=
  (by decide +kernel : ∀ q0 : Fin 20, ∃ t : Fin grid1.N, win1_5.index t = ![q0.val, 0])

/-- What grid point t writes back is its block of rows of the layer, under the hyperbolic tangent, of the whole arrays. -/
theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [Body.pay1_eq]
  obtain ⟨e0, e1, e2, e3, e4, e5, e6, e7, e8, e9, e10, e11⟩ := idx_facts t
  funext j
  show layerTanh (N := 5000) (fun y => V c main_v31 (((cfg1.win 0).blk t).view.emb y)) (fun y => V c main_v43 (((cfg1.win 1).blk t).view.emb y))
        (fun y => V c main_v48 (((cfg1.win 2).blk t).view.emb y)) (fun y => V c main_v50 (((cfg1.win 3).blk t).view.emb y))
        (fun y => V c main_v46 (((cfg1.win 4).blk t).view.emb y)) j
      = layerTanh (N := 100000) (V c main_v31) (V c main_v43) (V c main_v48) (V c main_v50) (V c main_v46) (((cfg1.win 5).blk t).view.emb j)
  have hj0 : (j 0).val < 5000 := (j 0).isLt
  have hj1 : (j 1).val < 128 := (j 1).isLt
  refine layerTanh_block (V c main_v31) (V c main_v43) (V c main_v48) (V c main_v50) (V c main_v46) _ _ _ _ _ j
    (((cfg1.win 5).blk t).view.emb j) ?_ ?_ ?_ ?_ ?_ ?_
  · exact Fin.ext (by show win1_5.index t (1 : Fin 2) * 128 + 1 * (j 1).val = (j 1).val; omega)
  · intro k
    refine congrArg (V c main_v31) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · intro k
    refine congrArg (V c main_v43) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · funext y
    refine congrArg (V c main_v48) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    refine congrArg (V c main_v50) (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  · funext y
    refine congrArg (V c main_v46) (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega

/-- An index of the output array is in grid point t's block iff each coordinate is in the block's range. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v51).slice (win1_5.rect t)).set ↔ _
  rw [View.set_slice_whole, Rect.mem_set_unit]
  exact Iff.rfl

/-- The twenty blocks of rows tile the array: row r is in block r / 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region: the layer, under the hyperbolic tangent, of the whole arrays the region found. -/
theorem final (c : Dev nD) : (dat1 V c).arrAt 5 cfg1.N = whole V c :=
  (dat1 V c).arrAt_eq_of_cover 5 (whole V c) (fun t _ => flushed_eq V c t) cover

end Cert.KernelIdeal.Region1

end
-- ==== Proof.KernelValue.lean ====
/-
  The kernel program's result is the model of the argument arrays.

  The program runs host operations, the first kernel, more host operations, the second kernel.  Its result buffer
  ends at what the second kernel's twenty write-backs leave: the layer, under the hyperbolic tangent, of the arrays
  the second region finds (`Region1.final`).  Of those, the node features are what the first kernel left — the layer
  of the arrays the first region finds (`Region0.final`) —, and the others are host operations applied to it and
  to the arguments: the neighbour means through the same gather, scatter-add and inverse-degree column as in the
  model, the weight slices, the bias row (a 128-vector reshaped to 1 x 128, the row layout of the model's
  `biasRow`).  The arrays the first region finds are the same host operations applied to the arguments.  Every such
  read is the host stretch's operations evaluated at one buffer; no gather or scatter-add is ever opened.
-/
import proofs.«128625_j69870527971697_1_alg».proof.Proof.KernelRun
import proofs.«128625_j69870527971697_1_alg».proof.Proof.KernelRegion0
import proofs.«128625_j69870527971697_1_alg».proof.Proof.KernelRegion1
import proofs.«128625_j69870527971697_1_alg».proof.Proof.SageModel
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx Cert.Sage

/-- A 128-vector reshaped to 1 x 128 is the vector laid out as a row. -/
theorem reshape_row (bv : FVec Ideal S128 .f32) : shapeCast S1x128 bv shapeCasts_S128_S1x128 = biasRow bv := by
  funext j
  refine shapeCast_apply bv shapeCasts_S128_S1x128 j (ix1 (j 1)) ?_
  rewrite [Shape.rowMajor_val_one, Shape.rowMajor_val_two]
  have h0 : (j 0).val < 1 := (j 0).isLt
  show (j 1).val = (j 0).val * 128 + (j 1).val
  omega

section Host

variable {F : FTy → Type} [FloatOps F]
variable (m : (ℓ : Loc nD τ sig) → Buf (Elt F) ℓ) (ρ : Dev nD → PrngReg)

/-! ## What the first region finds: host operations of the arguments -/

theorem in0_arg0 (c : Dev nD) : W3 m ρ c (Proc.devRef .tc main_arg0) = (m ((c : Thread nD τ).loc main_arg0)) := by
  dsimp only [W3, W2, W1, hostOps0, hostOps0_1, hostOps0_2]
  after_results_simp <;> rfl
theorem in0_arg1 (c : Dev nD) : W3 m ρ c (Proc.devRef .tc main_arg1) = (m ((c : Thread nD τ).loc main_arg1)) := by
  dsimp only [W3, W2, W1, hostOps0, hostOps0_1, hostOps0_2]
  after_results_simp <;> rfl
theorem in0_arg2 (c : Dev nD) : W3 m ρ c (Proc.devRef .tc main_arg2) = (m ((c : Thread nD τ).loc main_arg2)) := by
  dsimp only [W3, W2, W1, hostOps0, hostOps0_1, hostOps0_2]
  after_results_simp <;> rfl
theorem in0_arg3 (c : Dev nD) : W3 m ρ c (Proc.devRef .tc main_arg3) = (m ((c : Thread nD τ).loc main_arg3)) := by
  dsimp only [W3, W2, W1, hostOps0, hostOps0_1, hostOps0_2]
  after_results_simp <;> rfl
theorem in0_arg4 (c : Dev nD) : W3 m ρ c (Proc.devRef .tc main_arg4) = (m ((c : Thread nD τ).loc main_arg4)) := by
  dsimp only [W3, W2, W1, hostOps0, hostOps0_1, hostOps0_2]
  after_results_simp <;> rfl
theorem in0_arg5 (c : Dev nD) : W3 m ρ c (Proc.devRef .tc main_arg5) = (m ((c : Thread nD τ).loc main_arg5)) := by
  dsimp only [W3, W2, W1, hostOps0, hostOps0_1, hostOps0_2]
  after_results_simp <;> rfl

/-- The inverse-degree column. -/
theorem in0_col (c : Dev nD) : W3 m ρ c (Proc.devRef .tc main_v11) = invDeg (F := F) (m ((c : Thread nD τ).loc main_arg2)) := by
  dsimp only [W3, W2, W1, hostOps0, hostOps0_1, hostOps0_2]
  after_results_simp <;> (unfold invDeg degree; rfl)

/-- The neighbour means of the input features. -/
theorem in0_neigh (c : Dev nD) :
    W3 m ρ c (Proc.devRef .tc main_v23) = neigh (F := F) (m ((c : Thread nD τ).loc main_arg0)) (m ((c : Thread nD τ).loc main_arg1)) (m ((c : Thread nD τ).loc main_arg2)) := by
  dsimp only [W3, W2, W1, hostOps0, hostOps0_1, hostOps0_2]
  after_results_simp <;> (unfold neigh neighWith invDeg degree; rfl)

theorem in0_ws (c : Dev nD) : W3 m ρ c (Proc.devRef .tc main_v28) = wAt0 (F := F) (m ((c : Thread nD τ).loc main_arg3)) := by
  dsimp only [W3, W2, W1, hostOps0, hostOps0_1, hostOps0_2]
  after_results_simp <;> (unfold wAt0; rfl)
theorem in0_wn (c : Dev nD) : W3 m ρ c (Proc.devRef .tc main_v30) = wAt0 (F := F) (m ((c : Thread nD τ).loc main_arg4)) := by
  dsimp only [W3, W2, W1, hostOps0, hostOps0_1, hostOps0_2]
  after_results_simp <;> (unfold wAt0; rfl)
theorem in0_b (c : Dev nD) :
    W3 m ρ c (Proc.devRef .tc main_v26) = shapeCast S1x128 (bAt0 (F := F) (m ((c : Thread nD τ).loc main_arg5))) shapeCasts_S128_S1x128 := by
  dsimp only [W3, W2, W1, hostOps0, hostOps0_1, hostOps0_2]
  after_results_simp <;> (unfold bAt0; rfl)

/-! ## What the second region finds: host operations of what the first region left -/

theorem in1_h (c : Dev nD) : W5 m ρ c (Proc.devRef .tc main_v31) = W4 m ρ c (Proc.devRef .tc main_v31) := by
  dsimp only [W5, hostOps1]
  after_results_simp <;> rfl
theorem in1_neigh (c : Dev nD) :
    W5 m ρ c (Proc.devRef .tc main_v43) = neighWith (F := F) (W4 m ρ c (Proc.devRef .tc main_v31)) (W4 m ρ c (Proc.devRef .tc main_arg1)) (W4 m ρ c (Proc.devRef .tc main_arg2)) (W4 m ρ c (Proc.devRef .tc main_v11)) := by
  dsimp only [W5, hostOps1]
  after_results_simp <;> (unfold neighWith; rfl)
theorem in1_ws (c : Dev nD) : W5 m ρ c (Proc.devRef .tc main_v48) = wAt1 (F := F) (W4 m ρ c (Proc.devRef .tc main_arg3)) := by
  dsimp only [W5, hostOps1]
  after_results_simp <;> (unfold wAt1; rfl)
theorem in1_wn (c : Dev nD) : W5 m ρ c (Proc.devRef .tc main_v50) = wAt1 (F := F) (W4 m ρ c (Proc.devRef .tc main_arg4)) := by
  dsimp only [W5, hostOps1]
  after_results_simp <;> (unfold wAt1; rfl)
theorem in1_b (c : Dev nD) :
    W5 m ρ c (Proc.devRef .tc main_v46) = shapeCast S1x128 (bAt1 (F := F) (W4 m ρ c (Proc.devRef .tc main_arg5))) shapeCasts_S128_S1x128 := by
  dsimp only [W5, hostOps1]
  after_results_simp <;> (unfold bAt1; rfl)

/-! ## Across the first region: the arguments and the column are not its arrays -/

theorem mid_arg1 (c : Dev nD) : W4 m ρ c (Proc.devRef .tc main_arg1) = (m ((c : Thread nD τ).loc main_arg1)) :=
  (W4_of_ne m ρ c main_arg1 (by decide)).trans (in0_arg1 m ρ c)
theorem mid_arg2 (c : Dev nD) : W4 m ρ c (Proc.devRef .tc main_arg2) = (m ((c : Thread nD τ).loc main_arg2)) :=
  (W4_of_ne m ρ c main_arg2 (by decide)).trans (in0_arg2 m ρ c)
theorem mid_arg3 (c : Dev nD) : W4 m ρ c (Proc.devRef .tc main_arg3) = (m ((c : Thread nD τ).loc main_arg3)) :=
  (W4_of_ne m ρ c main_arg3 (by decide)).trans (in0_arg3 m ρ c)
theorem mid_arg4 (c : Dev nD) : W4 m ρ c (Proc.devRef .tc main_arg4) = (m ((c : Thread nD τ).loc main_arg4)) :=
  (W4_of_ne m ρ c main_arg4 (by decide)).trans (in0_arg4 m ρ c)
theorem mid_arg5 (c : Dev nD) : W4 m ρ c (Proc.devRef .tc main_arg5) = (m ((c : Thread nD τ).loc main_arg5)) :=
  (W4_of_ne m ρ c main_arg5 (by decide)).trans (in0_arg5 m ρ c)
theorem mid_col (c : Dev nD) : W4 m ρ c (Proc.devRef .tc main_v11) = invDeg (F := F) (m ((c : Thread nD τ).loc main_arg2)) :=
  (W4_of_ne m ρ c main_v11 (by decide)).trans (in0_col m ρ c)

end Host

/-! ## The result -/

variable (m : (ℓ : Loc nD τ sig) → Buf (Elt Ideal) ℓ) (ρ : Dev nD → PrngReg)

/-- What the first kernel leaves: layer 0 of the arguments. -/
theorem hidden_eq (c : Dev nD) :
    W4 m ρ c (Proc.devRef .tc main_v31)
      = layer (N := 100000) (m ((c : Thread nD τ).loc main_arg0)) (neigh (F := Ideal) (m ((c : Thread nD τ).loc main_arg0)) (m ((c : Thread nD τ).loc main_arg1)) (m ((c : Thread nD τ).loc main_arg2)))
          (wAt0 (F := Ideal) (m ((c : Thread nD τ).loc main_arg3))) (wAt0 (F := Ideal) (m ((c : Thread nD τ).loc main_arg4))) (biasRow (bAt0 (F := Ideal) (m ((c : Thread nD τ).loc main_arg5)))) := by
  refine (W4_arr m ρ c 5).trans ((Region0.final (V3 m ρ) c).trans ?_)
  show layer (N := 100000) (W3 m ρ c (Proc.devRef .tc main_arg0)) (W3 m ρ c (Proc.devRef .tc main_v23)) (W3 m ρ c (Proc.devRef .tc main_v28))
      (W3 m ρ c (Proc.devRef .tc main_v30)) (W3 m ρ c (Proc.devRef .tc main_v26)) = _
  rw [in0_arg0, in0_neigh, in0_ws, in0_wn, in0_b, reshape_row]

/-- The program's result buffer ends at the model of the arguments. -/
theorem result_eq (c : Dev nD) :
    W6 m ρ c (Proc.devRef .tc main_v51)
      = model (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 5).trans ((Region1.final (V5 m ρ) c).trans ?_)
  show layerTanh (N := 100000) (W5 m ρ c (Proc.devRef .tc main_v31)) (W5 m ρ c (Proc.devRef .tc main_v43)) (W5 m ρ c (Proc.devRef .tc main_v48))
      (W5 m ρ c (Proc.devRef .tc main_v50)) (W5 m ρ c (Proc.devRef .tc main_v46)) = _
  rw [in1_h, in1_neigh, in1_ws, in1_wn, in1_b, mid_arg1, mid_arg2, mid_arg3, mid_arg4, mid_arg5, mid_col, hidden_eq, reshape_row]
  rfl

end Cert.KernelIdeal.KValue

end
-- ==== Proof.lean ====
/-
  Two-layer GraphSAGE with the mean aggregator: a Pallas kernel program against its jnp reference, over the
  extended reals.

  Both programs compute, for node features x, edge lists src / dst, stacked weights W_self, W_neigh and biases b,

      h1  = ( x  . W_self[0] + neigh(x)  . W_neigh[0] ) + b[0]
      out = tanh( ( h1 . W_self[1] + neigh(h1) . W_neigh[1] ) + b[1] )

  where neigh(h) is the mean over each node's in-neighbours of the rows of h (gather at src, scatter-add at dst,
  times the inverse in-degree).  The gather, the scatter-add and the inverse degrees are host operations in both
  programs, applied in the same order: they are carried as opaque functions of equal operands.  What differs is
  where the dense layer runs.  The reference computes it on the host, whole arrays at a time.  The kernel program
  runs each layer as a kernel over twenty blocks of 5000 rows; a row of a layer's output depends only on the same
  row of its two feature operands, so the twenty write-backs leave the layer of the whole arrays.  The two sums of
  products and the bias are added in the same grouping on both sides, so the equality needs no law of the extended
  reals beyond reading each matrix product as its sum: the precondition is never opened.

  The three frames: the two kernel programs' are the generated frame certificates; the reference's is its run with
  the result dropped.  No rewrite was applied by the ideal pass, so the kernel is its own idealization.
-/
import proofs.«128625_j69870527971697_1_alg».proof.Defs
import proofs.«128625_j69870527971697_1_alg».proof.Proof.Gen.Kernel
import proofs.«128625_j69870527971697_1_alg».proof.Proof.Gen.Kernel.Skeleton
import proofs.«128625_j69870527971697_1_alg».proof.Proof.Gen.Kernel.Launch
import proofs.«128625_j69870527971697_1_alg».proof.Proof.Gen.Kernel.Points
import proofs.«128625_j69870527971697_1_alg».proof.Proof.Gen.Kernel.Frame
import proofs.«128625_j69870527971697_1_alg».proof.Proof.Gen.KernelIdeal
import proofs.«128625_j69870527971697_1_alg».proof.Proof.Gen.KernelIdeal.Skeleton
import proofs.«128625_j69870527971697_1_alg».proof.Proof.Gen.KernelIdeal.Launch
import proofs.«128625_j69870527971697_1_alg».proof.Proof.Gen.KernelIdeal.Points
import proofs.«128625_j69870527971697_1_alg».proof.Proof.Gen.KernelIdeal.Frame
import proofs.«128625_j69870527971697_1_alg».proof.Proof.Gen.ReferenceIdeal
import proofs.«128625_j69870527971697_1_alg».proof.Proof.Gen.Pre_finite_inputs
import proofs.«128625_j69870527971697_1_alg».proof.Proof.RefRun
import proofs.«128625_j69870527971697_1_alg».proof.Proof.RefValue
import proofs.«128625_j69870527971697_1_alg».proof.Proof.KernelRun
import proofs.«128625_j69870527971697_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- Both programs end with the model of the (agreeing) arguments in their result buffers. -/
theorem algebraic : Cert.algebraic_KernelIdeal_ReferenceIdeal := by
  intro m ρ m' ρ' _ hagree
  refine ⟨fun c => Cert.Sage.model
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KValue.result_eq m ρ c), (h c).2⟩)
      (Cert.KernelIdeal.GenRun.run_main (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.res_model, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
